-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S32x32 : Shape := ⟨2, ![32, 32]⟩
abbrev S32 : Shape := ⟨1, ![32]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S65536x4096 .f32) (main_arg1 : FVec F S32x32 .f32) (main_arg2 : FVec F S32 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S65536x4096 : Shape := ⟨2, ![65536, 4096]⟩
abbrev S32x32 : Shape := ⟨2, ![32, 32]⟩
abbrev S32 : Shape := ⟨1, ![32]⟩
abbrev S65536x32 : Shape := ⟨2, ![65536, 32]⟩
abbrev S512x4096 : Shape := ⟨2, ![512, 4096]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S512x4 : Shape := ⟨2, ![512, 4]⟩
abbrev S1x32 : Shape := ⟨2, ![1, 32]⟩

abbrev nBuf : Space → Nat
  | .hbm => 5
  | .vmem => 6
  | .smem => 0
  | _ => 0

abbrev bufTy : (tb : Table) → Fin (tcTables nBuf tb) → BufTy
  | .hbm, ⟨0, _⟩ => ⟨S65536x4096, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S65536x32, .f32⟩
  | .local _ .vmem, ⟨0, _⟩ => ⟨S512x4096, .f32⟩
  | .local _ .vmem, ⟨1, _⟩ => ⟨S512x4096, .f32⟩
  | .local _ .vmem, ⟨2, _⟩ => ⟨S32x32, .f32⟩
  | .local _ .vmem, ⟨3, _⟩ => ⟨S32, .f32⟩
  | .local _ .vmem, ⟨4, _⟩ => ⟨S512x32, .f32⟩
  | .local _ .vmem, ⟨5, _⟩ => ⟨S512x32, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x32_S32x32_1_0 : S32x32.Transposes [1, 0] S32x32
  inb_S512x4096_S512x512_0_0 : ∀ a, (![0, 0] : Fin 2 → Nat) a + S512x512.size a ≤ S512x4096.size a
  h_S512x512 : 0 < S512x512.numel
  reduces_S512x512_S512 : S512x512.Reduces [1] S512
  shapeCasts_S512_S512x1 : S512.ShapeCasts S512x1
  broadcasts_S512x1_S512x512 : S512x1.Broadcasts S512x512
  concatenates_S512x1_S512x1_S512x1_S512x1_S512x4_d1 : Shape.Concatenates [S512x1, S512x1, S512x1, S512x1] S512x4 1
  inb_S512x4096_S512x512_0_512 : ∀ a, (![0, 512] : Fin 2 → Nat) a + S512x512.size a ≤ S512x4096.size a
  inb_S512x4096_S512x512_0_1024 : ∀ a, (![0, 1024] : Fin 2 → Nat) a + S512x512.size a ≤ S512x4096.size a
  inb_S512x4096_S512x512_0_1536 : ∀ a, (![0, 1536] : Fin 2 → Nat) a + S512x512.size a ≤ S512x4096.size a
  inb_S512x4096_S512x512_0_2048 : ∀ a, (![0, 2048] : Fin 2 → Nat) a + S512x512.size a ≤ S512x4096.size a
  inb_S512x4096_S512x512_0_2560 : ∀ a, (![0, 2560] : Fin 2 → Nat) a + S512x512.size a ≤ S512x4096.size a
  inb_S512x4096_S512x512_0_3072 : ∀ a, (![0, 3072] : Fin 2 → Nat) a + S512x512.size a ≤ S512x4096.size a
  inb_S512x4096_S512x512_0_3584 : ∀ a, (![0, 3584] : Fin 2 → Nat) a + S512x512.size a ≤ S512x4096.size a
  concatenates_S512x4_S512x4_S512x4_S512x4_S512x4_S512x4_S512x4_S512x4_S512x32_d1 : Shape.Concatenates [S512x4, S512x4, S512x4, S512x4, S512x4, S512x4, S512x4, S512x4] S512x32 1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  dot_S512x32_S32x32_S512x32_1_0_0_1_n_n_wf : DotDims.WF S512x32 S32x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S65536x32.size a
  hwx0_3 : ∀ i : grid0.Coords, EltTy.bits .f32 = 32 ∨ (Rect.block (s := S65536x32) S512x32.size (cc0_transform_3 i) (hinb0_3 i)).WholeWords (EltTy.packing .f32)

variable [Facts₀]

def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S32x32 : Shape := ⟨2, ![32, 32]⟩
abbrev S32 : Shape := ⟨1, ![32]⟩
abbrev S65536x8x512 : Shape := ⟨3, ![65536, 8, 512]⟩
abbrev S_ : Shape := ⟨0, ![]⟩
abbrev S65536x8 : Shape := ⟨2, ![65536, 8]⟩
abbrev S65536x8x1 : Shape := ⟨3, ![65536, 8, 1]⟩
abbrev S65536x8x4 : Shape := ⟨3, ![65536, 8, 4]⟩
abbrev S65536x32 : Shape := ⟨2, ![65536, 32]⟩
abbrev S1x32 : Shape := ⟨2, ![1, 32]⟩

abbrev nBuf : Space → Nat
  | .hbm => 56
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S32x32, .f32⟩
  | .hbm, ⟨2, _⟩ => ⟨S32, .f32⟩
  | .hbm, ⟨3, _⟩ => ⟨S65536x8x512, .f32⟩
  | .hbm, ⟨4, _⟩ => ⟨S_, .f32⟩
  | .hbm, ⟨5, _⟩ => ⟨S65536x8, .f32⟩
  | .hbm, ⟨6, _⟩ => ⟨S_, .f32⟩
  | .hbm, ⟨7, _⟩ => ⟨S65536x8, .f32⟩
  | .hbm, ⟨8, _⟩ => ⟨S65536x8, .f32⟩
  | .hbm, ⟨9, _⟩ => ⟨S65536x8x1, .f32⟩
  | .hbm, ⟨10, _⟩ => ⟨S65536x8x512, .f32⟩
  | .hbm, ⟨11, _⟩ => ⟨S65536x8x512, .f32⟩
  | .hbm, ⟨12, _⟩ => ⟨S65536x8x512, .f32⟩
  | .hbm, ⟨13, _⟩ => ⟨S_, .f32⟩
  | .hbm, ⟨14, _⟩ => ⟨S65536x8, .f32⟩
  | .hbm, ⟨15, _⟩ => ⟨S_, .f32⟩
  | .hbm, ⟨16, _⟩ => ⟨S65536x8, .f32⟩
  | .hbm, ⟨17, _⟩ => ⟨S65536x8, .f32⟩
  | .hbm, ⟨18, _⟩ => ⟨S65536x8, .f32⟩
  | .hbm, ⟨19, _⟩ => ⟨S_, .f32⟩
  | .hbm, ⟨20, _⟩ => ⟨S65536x8, .f32⟩
  | .hbm, ⟨21, _⟩ => ⟨S65536x8, .f32⟩
  | .hbm, ⟨22, _⟩ => ⟨S65536x8x512, .f32⟩
  | .hbm, ⟨23, _⟩ => ⟨S65536x8x512, .f32⟩
  | .hbm, ⟨24, _⟩ => ⟨S_, .f32⟩
  | .hbm, ⟨25, _⟩ => ⟨S65536x8, .f32⟩
  | .hbm, ⟨26, _⟩ => ⟨S_, .f32⟩
  | .hbm, ⟨27, _⟩ => ⟨S65536x8, .f32⟩
  | .hbm, ⟨28, _⟩ => ⟨S65536x8, .f32⟩
  | .hbm, ⟨29, _⟩ => ⟨S65536x8, .f32⟩
  | .hbm, ⟨30, _⟩ => ⟨S65536x8, .f32⟩
  | .hbm, ⟨31, _⟩ => ⟨S65536x8, .f32⟩
  | .hbm, ⟨32, _⟩ => ⟨S65536x8x512, .f32⟩
  | .hbm, ⟨33, _⟩ => ⟨S65536x8x512, .f32⟩
  | .hbm, ⟨34, _⟩ => ⟨S_, .f32⟩
  | .hbm, ⟨35, _⟩ => ⟨S65536x8, .f32⟩
  | .hbm, ⟨36, _⟩ => ⟨S_, .f32⟩
  | .hbm, ⟨37, _⟩ => ⟨S65536x8, .f32⟩
  | .hbm, ⟨38, _⟩ => ⟨S65536x8, .f32⟩
  | .hbm, ⟨39, _⟩ => ⟨S65536x8, .f32⟩
  | .hbm, ⟨40, _⟩ => ⟨S65536x8, .f32⟩
  | .hbm, ⟨41, _⟩ => ⟨S65536x8, .f32⟩
  | .hbm, ⟨42, _⟩ => ⟨S_, .f32⟩
  | .hbm, ⟨43, _⟩ => ⟨S65536x8, .f32⟩
  | .hbm, ⟨44, _⟩ => ⟨S65536x8, .f32⟩
  | .hbm, ⟨45, _⟩ => ⟨S65536x8x1, .f32⟩
  | .hbm, ⟨46, _⟩ => ⟨S65536x8x1, .f32⟩
  | .hbm, ⟨47, _⟩ => ⟨S65536x8x1, .f32⟩
  | .hbm, ⟨48, _⟩ => ⟨S65536x8x1, .f32⟩
  | .hbm, ⟨49, _⟩ => ⟨S65536x8x4, .f32⟩
  | .hbm, ⟨50, _⟩ => ⟨S65536x32, .f32⟩
  | .hbm, ⟨51, _⟩ => ⟨S32x32, .f32⟩
  | .hbm, ⟨52, _⟩ => ⟨S65536x32, .f32⟩
  | .hbm, ⟨53, _⟩ => ⟨S1x32, .f32⟩
  | .hbm, ⟨54, _⟩ => ⟨S65536x32, .f32⟩
  | .hbm, ⟨55, _⟩ => ⟨S65536x32, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  shapeCasts_S65536x4096_S65536x8x512 : S65536x4096.ShapeCasts S65536x8x512
  reducesTo_S65536x8x512_S65536x8_d2 : S65536x8x512.ReducesTo [2] S65536x8
  h_S_ : 0 < S_.numel
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x512_0_1_2 : S65536x8x1.BroadcastsInDim S65536x8x512 (![0, 1, 2] : Fin 3 → Fin S65536x8x512.rank)
  concatenates_S65536x8x1_S65536x8x1_S65536x8x1_S65536x8x1_S65536x8x4_d2 : Shape.Concatenates [S65536x8x1, S65536x8x1, S65536x8x1, S65536x8x1] S65536x8x4 2
  shapeCasts_S65536x8x4_S65536x32 : S65536x8x4.ShapeCasts S65536x32
  transposes_S32x32_S32x32_1_0 : S32x32.Transposes [1, 0] S32x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  dot_S65536x32_S32x32_S65536x32_1_0_0_1_n_n_wf : DotDims.WF S65536x32 S32x32 S65536x32 [1] [0] [0] [1] [] []

variable [Facts₀]

def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf

class Facts : Prop extends Facts₀ where

variable [Facts]
-- ==== Proof.Spec.lean ====
/-
  The function both programs compute, index by index, on the extended reals.

  A row of x has 4096 entries, read as 8 segments of 512. For one segment s (a function on Fin 512):
    mean  = (sum of s) / 512
    d k   = s k - mean,  q k = d k * d k
    sd    = sqrt ((sum of q) / 511) + eps
    skew  = ((sum of q k * d k) / 512) / (sd * (sd * sd))
    kurt  = ((sum of q k * q k) / 512) / ((sd * sd) * (sd * sd)) - 3
  The 32 moments of a row are these four numbers for each of its 8 segments, segment-major. The result
  at (R, o) is the dot product of row R's moments with row o of W, plus b o.
-/
import Idealize.ShloMosaic.PureOps.Ideal
import Idealize.ShloMosaic.Lib.ValueIdx

noncomputable section

open scoped BigOperators

namespace Cert.Moments

open Idealize.ShloMosaic Idealize.ShloMosaic.ValueIdx

/-- The f32 literals of both programs, as the extended reals their bit patterns denote. -/
abbrev c512 : EReal := Ideal.ofBits .f32 0x44000000#32
abbrev c511 : EReal := Ideal.ofBits .f32 0x43FF8000#32
abbrev ceps : EReal := Ideal.ofBits .f32 0x322BCC77#32
abbrev cthree : EReal := Ideal.ofBits .f32 0x40400000#32

/-- The mean of a segment. -/
def segMean (s : Fin 512 → EReal) : EReal := Ideal.div (∑ k : Fin 512, s k) c512
/-- A segment's entry minus the segment's mean. -/
def segDev (s : Fin 512 → EReal) (k : Fin 512) : EReal := s k - segMean s
/-- The squared deviation. -/
def segSq (s : Fin 512 → EReal) (k : Fin 512) : EReal := segDev s k * segDev s k
/-- The unbiased standard deviation plus eps. -/
def segSd (s : Fin 512 → EReal) : EReal := Ideal.sqrt (Ideal.div (∑ k : Fin 512, segSq s k) c511) + ceps
/-- The third central moment over sd cubed. -/
def segSkew (s : Fin 512 → EReal) : EReal :=
  Ideal.div (Ideal.div (∑ k : Fin 512, segSq s k * segDev s k) c512) (segSd s * (segSd s * segSd s))
/-- The fourth central moment over sd to the fourth, minus 3. -/
def segKurt (s : Fin 512 → EReal) : EReal :=
  Ideal.div (Ideal.div (∑ k : Fin 512, segSq s k * segSq s k) c512) ((segSd s * segSd s) * (segSd s * segSd s)) - cthree

/-- The four statistics of a segment, in the order mean, sd, skew, kurt. -/
def segStat (s : Fin 512 → EReal) (j : Fin 4) : EReal :=
  match j with
  | ⟨0, _⟩ => segMean s
  | ⟨1, _⟩ => segSd s
  | ⟨2, _⟩ => segSkew s
  | ⟨3, _⟩ => segKurt s

/-- Segment g of a row of 4096 entries. -/
def rowSeg (row : Fin 4096 → EReal) (g : Fin 8) : Fin 512 → EReal :=
  fun k => row ⟨512 * g.val + k.val, by have := g.isLt; have := k.isLt; omega⟩

/-- Moment k of a row: statistic k % 4 of segment k / 4. -/
def rowMoment (row : Fin 4096 → EReal) (k : Fin 32) : EReal :=
  segStat (rowSeg row ⟨k.val / 4, by have := k.isLt; omega⟩) ⟨k.val % 4, Nat.mod_lt _ (by decide)⟩

/-- One entry of the result from a row of x, a column of weights and a bias. -/
def outEntry (row : Fin 4096 → EReal) (w : Fin 32 → EReal) (bias : EReal) : EReal :=
  (∑ k : Fin 32, rowMoment row k * w k) + bias

/-- The whole result: entry (R, o) from row R of x, row o of W and b o. -/
def momentsOut (x : (⟨2, ![65536, 4096]⟩ : Shape).Idx → EReal) (W : (⟨2, ![32, 32]⟩ : Shape).Idx → EReal)
    (b : (⟨1, ![32]⟩ : Shape).Idx → EReal) : (⟨2, ![65536, 32]⟩ : Shape).Idx → EReal :=
  fun i => outEntry (fun c => x (ix2 (i 0) c)) (fun k => W (ix2 (i 1) k)) (b (ix1 (i 1)))

/-- The result at (R, o). -/
theorem momentsOut_apply (x : (⟨2, ![65536, 4096]⟩ : Shape).Idx → EReal) (W : (⟨2, ![32, 32]⟩ : Shape).Idx → EReal)
    (b : (⟨1, ![32]⟩ : Shape).Idx → EReal) (R : Fin 65536) (o : Fin 32) :
    momentsOut x W b (ix2 R o) = outEntry (fun c => x (ix2 R c)) (fun k => W (ix2 o k)) (b (ix1 o)) := rfl

end Cert.Moments

end
-- ==== Proof.LibColumns.lean ====
/-
  Column (keepdims) layout operations and unit-width concatenations read at an index given by coordinates.

  * a vector of length a cast to a column [a, 1] reads, at (i, 0), the vector at i;
  * a column [a, 1] broadcast along the lanes to [a, b] reads, at (p, c), the column at (p, 0);
  * four columns [a, 1] joined along axis 1 to [a, 4] read, at (p, j), column j at (p, 0);
  * four arrays [a, b, 1] joined along axis 2 to [a, b, 4] read, at (p, q, j), array j at (p, q, 0);
  * eight arrays [a, 4] joined along axis 1 to [a, 32] read, at (p, 4 g + j), array g at (p, j).
-/
import Idealize.ShloMosaic.Lib.Pipeline.Value
import Idealize.ShloMosaic.Lib.ValueIdx

namespace Idealize.ShloMosaic.ValueIdx

open Idealize.ShloMosaic

variable {α : Type}

/-- A length-a vector cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Four columns joined along axis 1: entry (p, j) of the result is column j at (p, 0). -/
theorem concat4_columns_apply {a : ℕ} (v0 v1 v2 v3 : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1)
    (p : Fin a) (j : Fin 4) (vj : (⟨2, ![a, 1]⟩ : Shape).Idx → α)
    (hvj : [v0, v1, v2, v3][j.val]? = some vj) :
    concatenate ⟨2, ![a, 4]⟩ 1 [⟨⟨2, ![a, 1]⟩, v0⟩, ⟨⟨2, ![a, 1]⟩, v1⟩, ⟨⟨2, ![a, 1]⟩, v2⟩, ⟨⟨2, ![a, 1]⟩, v3⟩] h (ix2 p j)
      = vj (ix2 p (0 : Fin 1)) := by
  have hi : ∀ b : Fin 2, b.cast (rfl : (2 : ℕ) = 2) ≠ (1 : Fin 2) →
      ((ix2 p (0 : Fin 1) : (⟨2, ![a, 1]⟩ : Shape).Idx) b).val = ((ix2 p j : (⟨2, ![a, 4]⟩ : Shape).Idx) (b.cast rfl)).val := fun b hb => by
    match b with
    | ⟨0, _⟩ => rfl
    | ⟨1, _⟩ => exact absurd rfl hb
  let xs : List ((s : Shape) × (s.Idx → α)) := [⟨⟨2, ![a, 1]⟩, v0⟩, ⟨⟨2, ![a, 1]⟩, v1⟩, ⟨⟨2, ![a, 1]⟩, v2⟩, ⟨⟨2, ![a, 1]⟩, v3⟩]
  match j with
  | ⟨0, _⟩ =>
    obtain rfl : v0 = vj := by simpa using hvj
    exact concatenate_apply_piece (t := ⟨2, ![a, 4]⟩) 1 xs h _ 0 (by show (0 : ℕ) < 4; omega) _ _ rfl rfl 0 rfl _ hi rfl
  | ⟨1, _⟩ =>
    obtain rfl : v1 = vj := by simpa using hvj
    exact concatenate_apply_piece (t := ⟨2, ![a, 4]⟩) 1 xs h _ 1 (by show (1 : ℕ) < 4; omega) _ _ rfl rfl 1 rfl _ hi rfl
  | ⟨2, _⟩ =>
    obtain rfl : v2 = vj := by simpa using hvj
    exact concatenate_apply_piece (t := ⟨2, ![a, 4]⟩) 1 xs h _ 2 (by show (2 : ℕ) < 4; omega) _ _ rfl rfl 2 rfl _ hi rfl
  | ⟨3, _⟩ =>
    obtain rfl : v3 = vj := by simpa using hvj
    exact concatenate_apply_piece (t := ⟨2, ![a, 4]⟩) 1 xs h _ 3 (by show (3 : ℕ) < 4; omega) _ _ rfl rfl 3 rfl _ hi rfl

/-- Four arrays [a, b, 1] joined along axis 2: entry (p, q, j) of the result is array j at (p, q, 0). -/
theorem concat4_last_apply {a b : ℕ} (v0 v1 v2 v3 : (⟨3, ![a, b, 1]⟩ : Shape).Idx → α)
    (h : Shape.Concatenates [(⟨3, ![a, b, 1]⟩ : Shape), ⟨3, ![a, b, 1]⟩, ⟨3, ![a, b, 1]⟩, ⟨3, ![a, b, 1]⟩] ⟨3, ![a, b, 4]⟩ 2)
    (p : Fin a) (q : Fin b) (j : Fin 4) (vj : (⟨3, ![a, b, 1]⟩ : Shape).Idx → α)
    (hvj : [v0, v1, v2, v3][j.val]? = some vj) :
    concatenate ⟨3, ![a, b, 4]⟩ 2 [⟨⟨3, ![a, b, 1]⟩, v0⟩, ⟨⟨3, ![a, b, 1]⟩, v1⟩, ⟨⟨3, ![a, b, 1]⟩, v2⟩, ⟨⟨3, ![a, b, 1]⟩, v3⟩] h (ix3 p q j)
      = vj (ix3 p q (0 : Fin 1)) := by
  have hi : ∀ c : Fin 3, c.cast (rfl : (3 : ℕ) = 3) ≠ (2 : Fin 3) →
      ((ix3 p q (0 : Fin 1) : (⟨3, ![a, b, 1]⟩ : Shape).Idx) c).val = ((ix3 p q j : (⟨3, ![a, b, 4]⟩ : Shape).Idx) (c.cast rfl)).val := fun c hc => by
    match c with
    | ⟨0, _⟩ => rfl
    | ⟨1, _⟩ => rfl
    | ⟨2, _⟩ => exact absurd rfl hc
  let xs : List ((s : Shape) × (s.Idx → α)) := [⟨⟨3, ![a, b, 1]⟩, v0⟩, ⟨⟨3, ![a, b, 1]⟩, v1⟩, ⟨⟨3, ![a, b, 1]⟩, v2⟩, ⟨⟨3, ![a, b, 1]⟩, v3⟩]
  match j with
  | ⟨0, _⟩ =>
    obtain rfl : v0 = vj := by simpa using hvj
    exact concatenate_apply_piece (t := ⟨3, ![a, b, 4]⟩) 2 xs h _ 0 (by show (0 : ℕ) < 4; omega) _ _ rfl rfl 0 rfl _ hi rfl
  | ⟨1, _⟩ =>
    obtain rfl : v1 = vj := by simpa using hvj
    exact concatenate_apply_piece (t := ⟨3, ![a, b, 4]⟩) 2 xs h _ 1 (by show (1 : ℕ) < 4; omega) _ _ rfl rfl 1 rfl _ hi rfl
  | ⟨2, _⟩ =>
    obtain rfl : v2 = vj := by simpa using hvj
    exact concatenate_apply_piece (t := ⟨3, ![a, b, 4]⟩) 2 xs h _ 2 (by show (2 : ℕ) < 4; omega) _ _ rfl rfl 2 rfl _ hi rfl
  | ⟨3, _⟩ =>
    obtain rfl : v3 = vj := by simpa using hvj
    exact concatenate_apply_piece (t := ⟨3, ![a, b, 4]⟩) 2 xs h _ 3 (by show (3 : ℕ) < 4; omega) _ _ rfl rfl 3 rfl _ hi rfl

/-- Eight arrays [a, 4] joined along axis 1: entry (p, k) of the result is array k / 4 at (p, k % 4). -/
theorem concat8_quads_apply {a : ℕ} (v : Fin 8 → ((⟨2, ![a, 4]⟩ : Shape).Idx → α))
    (h : Shape.Concatenates [(⟨2, ![a, 4]⟩ : Shape), ⟨2, ![a, 4]⟩, ⟨2, ![a, 4]⟩, ⟨2, ![a, 4]⟩, ⟨2, ![a, 4]⟩, ⟨2, ![a, 4]⟩, ⟨2, ![a, 4]⟩, ⟨2, ![a, 4]⟩] ⟨2, ![a, 32]⟩ 1)
    (p : Fin a) (g : Fin 8) (j : Fin 4) (k : Fin 32) (hk : k.val = 4 * g.val + j.val) :
    concatenate ⟨2, ![a, 32]⟩ 1 [⟨⟨2, ![a, 4]⟩, v 0⟩, ⟨⟨2, ![a, 4]⟩, v 1⟩, ⟨⟨2, ![a, 4]⟩, v 2⟩, ⟨⟨2, ![a, 4]⟩, v 3⟩,
        ⟨⟨2, ![a, 4]⟩, v 4⟩, ⟨⟨2, ![a, 4]⟩, v 5⟩, ⟨⟨2, ![a, 4]⟩, v 6⟩, ⟨⟨2, ![a, 4]⟩, v 7⟩] h (ix2 p k)
      = v g (ix2 p j) := by
  have hi : ∀ b : Fin 2, b.cast (rfl : (2 : ℕ) = 2) ≠ (1 : Fin 2) →
      ((ix2 p j : (⟨2, ![a, 4]⟩ : Shape).Idx) b).val = ((ix2 p k : (⟨2, ![a, 32]⟩ : Shape).Idx) (b.cast rfl)).val := fun b hb => by
    match b with
    | ⟨0, _⟩ => rfl
    | ⟨1, _⟩ => exact absurd rfl hb
  let xs : List ((s : Shape) × (s.Idx → α)) := [⟨⟨2, ![a, 4]⟩, v 0⟩, ⟨⟨2, ![a, 4]⟩, v 1⟩, ⟨⟨2, ![a, 4]⟩, v 2⟩, ⟨⟨2, ![a, 4]⟩, v 3⟩,
    ⟨⟨2, ![a, 4]⟩, v 4⟩, ⟨⟨2, ![a, 4]⟩, v 5⟩, ⟨⟨2, ![a, 4]⟩, v 6⟩, ⟨⟨2, ![a, 4]⟩, v 7⟩]
  match g with
  | ⟨0, _⟩ => exact concatenate_apply_piece (t := ⟨2, ![a, 32]⟩) 1 xs h _ 0 (by show (0 : ℕ) < 8; omega) _ _ rfl rfl 0 rfl _ hi (by have hk' : k.val = 4 * 0 + j.val := hk; show 0 + j.val = k.val; omega)
  | ⟨1, _⟩ => exact concatenate_apply_piece (t := ⟨2, ![a, 32]⟩) 1 xs h _ 1 (by show (1 : ℕ) < 8; omega) _ _ rfl rfl 4 rfl _ hi (by have hk' : k.val = 4 * 1 + j.val := hk; show 4 + j.val = k.val; omega)
  | ⟨2, _⟩ => exact concatenate_apply_piece (t := ⟨2, ![a, 32]⟩) 1 xs h _ 2 (by show (2 : ℕ) < 8; omega) _ _ rfl rfl 8 rfl _ hi (by have hk' : k.val = 4 * 2 + j.val := hk; show 8 + j.val = k.val; omega)
  | ⟨3, _⟩ => exact concatenate_apply_piece (t := ⟨2, ![a, 32]⟩) 1 xs h _ 3 (by show (3 : ℕ) < 8; omega) _ _ rfl rfl 12 rfl _ hi (by have hk' : k.val = 4 * 3 + j.val := hk; show 12 + j.val = k.val; omega)
  | ⟨4, _⟩ => exact concatenate_apply_piece (t := ⟨2, ![a, 32]⟩) 1 xs h _ 4 (by show (4 : ℕ) < 8; omega) _ _ rfl rfl 16 rfl _ hi (by have hk' : k.val = 4 * 4 + j.val := hk; show 16 + j.val = k.val; omega)
  | ⟨5, _⟩ => exact concatenate_apply_piece (t := ⟨2, ![a, 32]⟩) 1 xs h _ 5 (by show (5 : ℕ) < 8; omega) _ _ rfl rfl 20 rfl _ hi (by have hk' : k.val = 4 * 5 + j.val := hk; show 20 + j.val = k.val; omega)
  | ⟨6, _⟩ => exact concatenate_apply_piece (t := ⟨2, ![a, 32]⟩) 1 xs h _ 6 (by show (6 : ℕ) < 8; omega) _ _ rfl rfl 24 rfl _ hi (by have hk' : k.val = 4 * 6 + j.val := hk; show 24 + j.val = k.val; omega)
  | ⟨7, _⟩ => exact concatenate_apply_piece (t := ⟨2, ![a, 32]⟩) 1 xs h _ 7 (by show (7 : ℕ) < 8; omega) _ _ rfl rfl 28 rfl _ hi (by have hk' : k.val = 4 * 7 + j.val := hk; show 28 + j.val = k.val; omega)

end Idealize.ShloMosaic.ValueIdx
-- ==== Proof.SegmentValue.lean ====
/-
  One segment of the kernel's body, read at an index.

  The body loads a [512, 512] block v (512 rows of one segment) and computes, column by column, the
  segment's mean, sd, skew and kurtosis for every row, then joins the four columns to a [512, 4] array.
  Here each of these vectors is named and read at a row p: it is the corresponding quantity of the
  specification for the function k ↦ v (p, k). A lane sum kept as a column is the sum over the row; a
  column broadcast along the lanes is the column's entry of that row.
-/
import proofs.«116447_j52450140619338_1_alg».proof.Proof.Gen.KernelIdeal.Skeleton
import proofs.«116447_j52450140619338_1_alg».proof.Proof.Spec
import proofs.«116447_j52450140619338_1_alg».proof.Proof.LibColumns
import Idealize.ShloMosaic.PureOps.Ideal.Laws
import Idealize.ShloMosaic.Lib.ValueIdx

noncomputable section

open scoped BigOperators

namespace Cert.KernelIdeal.SegValue

open Cert.KernelIdeal Cert.KernelIdeal.Gen Idealize.ShloMosaic Idealize.ShloMosaic.ValueIdx Cert.Moments

/-- Row p of a [512, 512] block. -/
def blockRow (v : FVec Ideal S512x512 .f32) (p : Fin 512) : Fin 512 → EReal := fun k => v (ix2 p k)

/-- The lane sums of a block, kept as a column. -/
def laneSumCol (w : FVec Ideal S512x512 .f32) : FVec Ideal S512x1 .f32 :=
  shapeCast S512x1 (multiReduction .add [1] S512 w 0x00000000#32 reduces_S512x512_S512 (.inl rfl) rfl) shapeCasts_S512_S512x1

/-- Entry p of the column of lane sums is the sum over row p. -/
theorem laneSumCol_apply (w : FVec Ideal S512x512 .f32) (p : Fin 512) (u : Fin 1) :
    laneSumCol w (ix2 p u) = ∑ k : Fin 512, w (ix2 p k) := by
  unfold laneSumCol
  refine (shapeCast_a_a1_apply _ _ p u).trans ?_
  refine (Ideal.multiReduction_add_single w 0x00000000#32 reduces_S512x512_S512 (.inl rfl) rfl (ix1 p)).trans ?_
  show ∑ k : Fin 512, w (reduces_S512x512_S512.lift (ix1 p) k) = _
  refine Finset.sum_congr rfl fun k _ => congrArg w (funext fun a => ?_)
  match a with
  | ⟨0, _⟩ => rfl
  | ⟨1, _⟩ => rfl

/-- The segment means, one per row. -/
def meanCol (v : FVec Ideal S512x512 .f32) : FVec Ideal S512x1 .f32 :=
  divf (laneSumCol v) (broadcast S512x1 (Scalar.ofBits .f32 0x44000000#32))
/-- The block minus its row means. -/
def devBlk (v : FVec Ideal S512x512 .f32) : FVec Ideal S512x512 .f32 :=
  subf v (broadcastTo S512x512 (meanCol v) broadcasts_S512x1_S512x512)
/-- The squared deviations. -/
def sqBlk (v : FVec Ideal S512x512 .f32) : FVec Ideal S512x512 .f32 := mulf (devBlk v) (devBlk v)
/-- sd per row. -/
def sdCol (v : FVec Ideal S512x512 .f32) : FVec Ideal S512x1 .f32 :=
  addf (sqrt (divf (laneSumCol (sqBlk v)) (broadcast S512x1 (Scalar.ofBits .f32 0x43FF8000#32))))
    (broadcast S512x1 (Scalar.ofBits .f32 0x322BCC77#32))
/-- skew per row. -/
def skewCol (v : FVec Ideal S512x512 .f32) : FVec Ideal S512x1 .f32 :=
  divf (divf (laneSumCol (mulf (sqBlk v) (devBlk v))) (broadcast S512x1 (Scalar.ofBits .f32 0x44000000#32)))
    (mulf (sdCol v) (mulf (sdCol v) (sdCol v)))
/-- kurtosis per row. -/
def kurtCol (v : FVec Ideal S512x512 .f32) : FVec Ideal S512x1 .f32 :=
  subf (divf (divf (laneSumCol (mulf (sqBlk v) (sqBlk v))) (broadcast S512x1 (Scalar.ofBits .f32 0x44000000#32)))
      (mulf (mulf (sdCol v) (sdCol v)) (mulf (sdCol v) (sdCol v))))
    (broadcast S512x1 (Scalar.ofBits .f32 0x40400000#32))

theorem meanCol_apply (v : FVec Ideal S512x512 .f32) (p : Fin 512) (u : Fin 1) :
    meanCol v (ix2 p u) = segMean (blockRow v p) := by
  show Ideal.div (laneSumCol v (ix2 p u)) _ = Ideal.div _ _
  rw [laneSumCol_apply]; rfl

theorem devBlk_apply (v : FVec Ideal S512x512 .f32) (p k : Fin 512) :
    devBlk v (ix2 p k) = segDev (blockRow v p) k := by
  show v (ix2 p k) - broadcastTo S512x512 (meanCol v) broadcasts_S512x1_S512x512 (ix2 p k) = _ - _
  rw [broadcastTo_a1_ab_apply, meanCol_apply]; rfl

theorem sqBlk_apply (v : FVec Ideal S512x512 .f32) (p k : Fin 512) :
    sqBlk v (ix2 p k) = segSq (blockRow v p) k := by
  show devBlk v (ix2 p k) * devBlk v (ix2 p k) = _
  rw [devBlk_apply]; rfl

theorem sdCol_apply (v : FVec Ideal S512x512 .f32) (p : Fin 512) (u : Fin 1) :
    sdCol v (ix2 p u) = segSd (blockRow v p) := by
  show Ideal.sqrt (Ideal.div (laneSumCol (sqBlk v) (ix2 p u)) _) + _ = Ideal.sqrt (Ideal.div _ _) + _
  rw [laneSumCol_apply]
  simp only [sqBlk_apply]; rfl

theorem skewCol_apply (v : FVec Ideal S512x512 .f32) (p : Fin 512) (u : Fin 1) :
    skewCol v (ix2 p u) = segSkew (blockRow v p) := by
  show Ideal.div (Ideal.div (laneSumCol (mulf (sqBlk v) (devBlk v)) (ix2 p u)) _)
      (sdCol v (ix2 p u) * (sdCol v (ix2 p u) * sdCol v (ix2 p u))) = Ideal.div (Ideal.div _ _) _
  rw [laneSumCol_apply, sdCol_apply]
  simp only [mulf_apply, sqBlk_apply, devBlk_apply]; rfl

theorem kurtCol_apply (v : FVec Ideal S512x512 .f32) (p : Fin 512) (u : Fin 1) :
    kurtCol v (ix2 p u) = segKurt (blockRow v p) := by
  show Ideal.div (Ideal.div (laneSumCol (mulf (sqBlk v) (sqBlk v)) (ix2 p u)) _)
      ((sdCol v (ix2 p u) * sdCol v (ix2 p u)) * (sdCol v (ix2 p u) * sdCol v (ix2 p u))) - _ = Ideal.div (Ideal.div _ _) _ - _
  rw [laneSumCol_apply, sdCol_apply]
  simp only [mulf_apply, sqBlk_apply]; rfl

/-- The four columns joined: the segment's [512, 4] array of statistics. -/
def segQuad (v : FVec Ideal S512x512 .f32) : FVec Ideal S512x4 .f32 :=
  concatenate S512x4 1 [⟨S512x1, meanCol v⟩, ⟨S512x1, sdCol v⟩, ⟨S512x1, skewCol v⟩, ⟨S512x1, kurtCol v⟩]
    concatenates_S512x1_S512x1_S512x1_S512x1_S512x4_d1

/-- Entry (p, j) of a segment's array is statistic j of row p of the block. -/
theorem segQuad_apply (v : FVec Ideal S512x512 .f32) (p : Fin 512) (j : Fin 4) :
    segQuad v (ix2 p j) = segStat (blockRow v p) j := by
  unfold segQuad
  match j with
  | ⟨0, _⟩ => exact (concat4_columns_apply _ _ _ _ _ p ⟨0, _⟩ _ rfl).trans (meanCol_apply v p 0)
  | ⟨1, _⟩ => exact (concat4_columns_apply _ _ _ _ _ p ⟨1, _⟩ _ rfl).trans (sdCol_apply v p 0)
  | ⟨2, _⟩ => exact (concat4_columns_apply _ _ _ _ _ p ⟨2, _⟩ _ rfl).trans (skewCol_apply v p 0)
  | ⟨3, _⟩ => exact (concat4_columns_apply _ _ _ _ _ p ⟨3, _⟩ _ rfl).trans (kurtCol_apply v p 0)

/-- The first segment's payload is this array. -/
theorem pay2_eq (v : FVec Ideal S512x512 .f32) : k0_pay2 (F := Ideal) v = segQuad v := rfl

end Cert.KernelIdeal.SegValue

end
-- ==== Proof.BodyValue.lean ====
/-
  What the kernel's body leaves in the output's staging block, index by index.

  The body reads its [512, 4096] block of x as eight [512, 512] slices, one per segment: slice g at
  (p, k) is the block at (p, 512 g + k). Each slice goes through the same computation (the segment's
  array of four statistics per row); the eight [512, 4] arrays are joined to the [512, 32] array of
  moments, multiplied by the [32, 32] weights (entry (p, o) is the sum over k of moment k of row p
  times weight (k, o)) and the bias is added along the rows. So entry (p, o) of the block is the
  specification's entry for row p of the x block, column o of the weights and bias o.
-/
import proofs.«116447_j52450140619338_1_alg».proof.Proof.Gen.KernelIdeal.Frame
import proofs.«116447_j52450140619338_1_alg».proof.Proof.SegmentValue
import Idealize.ShloMosaic.Lib.Pipeline.Value
import Idealize.ShloMosaic.Lib.ValueLayout

noncomputable section

open scoped BigOperators

namespace Cert.KernelIdeal.BodyValue

open Cert.KernelIdeal Cert.KernelIdeal.Gen Cert.KernelIdeal.SegValue Idealize.ShloMosaic Idealize.ShloMosaic.ValueIdx Cert.Moments

/-! ## The eight slices of the x block -/

/-- The rectangle of segment g inside the [512, 4096] block. -/
def segRect (g : Fin 8) : Rect S512x4096 :=
  match g with
  | ⟨0, _⟩ => r0_0 | ⟨1, _⟩ => r0_1 | ⟨2, _⟩ => r0_2 | ⟨3, _⟩ => r0_3
  | ⟨4, _⟩ => r0_4 | ⟨5, _⟩ => r0_5 | ⟨6, _⟩ => r0_6 | ⟨7, _⟩ => r0_7

/-- Slice g of the block. -/
def segLoad (x0 : Vec Ideal S512x4096 .f32) (g : Fin 8) : FVec Ideal S512x512 .f32 :=
  match g with
  | ⟨0, _⟩ => View.ld x0 r0_0 | ⟨1, _⟩ => View.ld x0 r0_1 | ⟨2, _⟩ => View.ld x0 r0_2 | ⟨3, _⟩ => View.ld x0 r0_3
  | ⟨4, _⟩ => View.ld x0 r0_4 | ⟨5, _⟩ => View.ld x0 r0_5 | ⟨6, _⟩ => View.ld x0 r0_6 | ⟨7, _⟩ => View.ld x0 r0_7

/-- Slice g at (p, k) is the block at (p, 512 g + k). -/
theorem segLoad_apply (x0 : Vec Ideal S512x4096 .f32) (g : Fin 8) (p k : Fin 512) :
    segLoad x0 g (ix2 p k) = x0 (ix2 p ⟨512 * g.val + k.val, by have := g.isLt; have := k.isLt; omega⟩) := by
  have hk := k.isLt
  match g with
  | ⟨0, _⟩ => exact congrArg x0 (funext fun a => Fin.ext (by
      match a with | ⟨0, _⟩ => show 0 + 1 * p.val = p.val; omega | ⟨1, _⟩ => show 0 + 1 * k.val = 512 * 0 + k.val; omega))
  | ⟨1, _⟩ => exact congrArg x0 (funext fun a => Fin.ext (by
      match a with | ⟨0, _⟩ => show 0 + 1 * p.val = p.val; omega | ⟨1, _⟩ => show 512 + 1 * k.val = 512 * 1 + k.val; omega))
  | ⟨2, _⟩ => exact congrArg x0 (funext fun a => Fin.ext (by
      match a with | ⟨0, _⟩ => show 0 + 1 * p.val = p.val; omega | ⟨1, _⟩ => show 1024 + 1 * k.val = 512 * 2 + k.val; omega))
  | ⟨3, _⟩ => exact congrArg x0 (funext fun a => Fin.ext (by
      match a with | ⟨0, _⟩ => show 0 + 1 * p.val = p.val; omega | ⟨1, _⟩ => show 1536 + 1 * k.val = 512 * 3 + k.val; omega))
  | ⟨4, _⟩ => exact congrArg x0 (funext fun a => Fin.ext (by
      match a with | ⟨0, _⟩ => show 0 + 1 * p.val = p.val; omega | ⟨1, _⟩ => show 2048 + 1 * k.val = 512 * 4 + k.val; omega))
  | ⟨5, _⟩ => exact congrArg x0 (funext fun a => Fin.ext (by
      match a with | ⟨0, _⟩ => show 0 + 1 * p.val = p.val; omega | ⟨1, _⟩ => show 2560 + 1 * k.val = 512 * 5 + k.val; omega))
  | ⟨6, _⟩ => exact congrArg x0 (funext fun a => Fin.ext (by
      match a with | ⟨0, _⟩ => show 0 + 1 * p.val = p.val; omega | ⟨1, _⟩ => show 3072 + 1 * k.val = 512 * 6 + k.val; omega))
  | ⟨7, _⟩ => exact congrArg x0 (funext fun a => Fin.ext (by
      match a with | ⟨0, _⟩ => show 0 + 1 * p.val = p.val; omega | ⟨1, _⟩ => show 3584 + 1 * k.val = 512 * 7 + k.val; omega))

/-- Row p of slice g is segment g of row p of the block. -/
theorem blockRow_segLoad (x0 : Vec Ideal S512x4096 .f32) (g : Fin 8) (p : Fin 512) :
    blockRow (segLoad x0 g) p = rowSeg (fun c => x0 (ix2 p c)) g :=
  funext fun k => segLoad_apply x0 g p k

/-! ## Every segment's payloads are the one segment computation -/

theorem seg1_eq (v : Vec Ideal S512x512 .f32) : k0_pay6 (F := Ideal) (k0_pay3 v) (k0_pay4 v) (k0_pay5 v) = segQuad v := rfl
theorem seg2_eq (v : Vec Ideal S512x512 .f32) :
    k0_pay13 (F := Ideal) (k0_pay7 v) (k0_pay10 v) (k0_pay11 v) (k0_pay12 v) = segQuad v := rfl
theorem seg3_eq (v : Vec Ideal S512x512 .f32) :
    k0_pay21 (F := Ideal) (k0_pay14 v) (k0_pay17 v) (k0_pay18 v) (k0_pay19 v) (k0_pay20 v) = segQuad v := rfl
theorem seg4_eq (v : Vec Ideal S512x512 .f32) : k0_pay22 (F := Ideal) v = segQuad v := rfl
theorem seg5_eq (v : Vec Ideal S512x512 .f32) : k0_pay24 (F := Ideal) v (k0_pay23 v) = segQuad v := rfl
theorem seg6_eq (v : Vec Ideal S512x512 .f32) :
    k0_pay30 (F := Ideal) (k0_pay25 v) (k0_pay27 v) (k0_pay28 v) (k0_pay29 v) = segQuad v := rfl

/-! ## The last steps: join, multiply by the weights, add the bias -/

/-- The eight segment arrays joined, times the weights, plus the bias along the rows. -/
def finish (q : Fin 8 → FVec Ideal S512x4 .f32) (w : FVec Ideal S32x32 .f32) (b : FVec Ideal S32 .f32) : FVec Ideal S512x32 .f32 :=
  addf (matmul dot_S512x32_S32x32_S512x32_1_0_0_1_n_n (some .fp32)
      (concatenate S512x32 1 [⟨S512x4, q 0⟩, ⟨S512x4, q 1⟩, ⟨S512x4, q 2⟩, ⟨S512x4, q 3⟩, ⟨S512x4, q 4⟩, ⟨S512x4, q 5⟩, ⟨S512x4, q 6⟩, ⟨S512x4, q 7⟩]
        concatenates_S512x4_S512x4_S512x4_S512x4_S512x4_S512x4_S512x4_S512x4_S512x32_d1)
      (shapeCast S32x32 w shapeCasts_S32x32_S32x32) (constant S512x32 .f32 0x00000000#32))
    (broadcastTo S512x32 (shapeCast S1x32 b shapeCasts_S32_S1x32) broadcasts_S1x32_S512x32)

/-- The last segment's tail and the last steps, in the body's own payload. -/
theorem pay1_eq (q0 q1 q2 q3 q4 q5 q6 : FVec Ideal S512x4 .f32) (v : Vec Ideal S512x512 .f32) (w : FVec Ideal S32x32 .f32)
    (b : FVec Ideal S32 .f32) :
    k0_pay1 (F := Ideal) q0 q1 q2 q3 q4 q5 q6 (k0_pay31 v) (k0_pay34 v) (k0_pay35 v) (k0_pay36 v)
        (Scalar.ofBits .f32 0x44000000#32) w b
      = finish (fun g => match g with
          | ⟨0, _⟩ => q0 | ⟨1, _⟩ => q1 | ⟨2, _⟩ => q2 | ⟨3, _⟩ => q3 | ⟨4, _⟩ => q4 | ⟨5, _⟩ => q5 | ⟨6, _⟩ => q6
          | ⟨7, _⟩ => segQuad v) w b := rfl

theorem lhs_axis0 (i : S512x32.Idx) (q : dot_S512x32_S32x32_S512x32_1_0_0_1_n_n.contr.Idx) : (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
theorem lhs_axis1 (i : S512x32.Idx) (q : dot_S512x32_S32x32_S512x32_1_0_0_1_n_n.contr.Idx) : (dot_S512x32_S32x32_S512x32_1_0_0_1_n_n.lhsIdx i q 1).val = (q ⟨0, by decide⟩).val :=
  dot_S512x32_S32x32_S512x32_1_0_0_1_n_n.lhsIdx_val_of_single rfl i q
theorem rhs_axis0 (i : S512x32.Idx) (q : dot_S512x32_S32x32_S512x32_1_0_0_1_n_n.contr.Idx) : (dot_S512x32_S32x32_S512x32_1_0_0_1_n_n.rhsIdx i q 0).val = (q ⟨0, by decide⟩).val :=
  dot_S512x32_S32x32_S512x32_1_0_0_1_n_n.rhsIdx_val_of_single rfl i q
theorem rhs_axis1 (i : S512x32.Idx) (q : dot_S512x32_S32x32_S512x32_1_0_0_1_n_n.contr.Idx) : (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl

/-- Entry (p, o) after the last steps: the sum over k of moment k of row p times weight (k, o), plus bias o. -/
theorem finish_apply (q : Fin 8 → FVec Ideal S512x4 .f32) (w : FVec Ideal S32x32 .f32) (b : FVec Ideal S32 .f32)
    (p : Fin 512) (o : Fin 32) :
    finish q w b (ix2 p o)
      = (∑ k : Fin 32, q ⟨k.val / 4, by have := k.isLt; omega⟩ (ix2 p (⟨k.val % 4, Nat.mod_lt _ (by decide)⟩ : Fin 4)) * w (ix2 k o))
        + b (ix1 o) := by
  unfold finish
  refine (addf_apply _ _ _).trans (congrArg₂ (fun a b : EReal => a + b) ?_ ?_)
  · refine (Ideal.matmul_constant_zero_apply dot_S512x32_S32x32_S512x32_1_0_0_1_n_n (some .fp32) _ _ (ix2 p o)).trans ?_
    rw [← Equiv.sum_comp (ValueIdx.contrEquiv1 dot_S512x32_S32x32_S512x32_1_0_0_1_n_n 32 rfl rfl).symm]
    refine Finset.sum_congr rfl fun k _ => ?_
    have hk := ValueIdx.contrEquiv1_symm_val dot_S512x32_S32x32_S512x32_1_0_0_1_n_n 32 rfl rfl k
    have el : dot_S512x32_S32x32_S512x32_1_0_0_1_n_n.lhsIdx (ix2 p o) ((ValueIdx.contrEquiv1 dot_S512x32_S32x32_S512x32_1_0_0_1_n_n 32 rfl rfl).symm k) = ix2 p k := funext fun a => Fin.ext (by
      match a with
      | ⟨0, _⟩ => exact lhs_axis0 _ _
      | ⟨1, _⟩ => exact (lhs_axis1 _ _).trans hk)
    have er : dot_S512x32_S32x32_S512x32_1_0_0_1_n_n.rhsIdx (ix2 p o) ((ValueIdx.contrEquiv1 dot_S512x32_S32x32_S512x32_1_0_0_1_n_n 32 rfl rfl).symm k) = ix2 k o := funext fun a => Fin.ext (by
      match a with
      | ⟨0, _⟩ => exact (rhs_axis0 _ _).trans hk
      | ⟨1, _⟩ => exact rhs_axis1 _ _)
    rw [el, er]
    refine congrArg₂ (fun a b : EReal => a * b) ?_ ?_
    · exact concat8_quads_apply q _ p ⟨k.val / 4, by have := k.isLt; omega⟩ ⟨k.val % 4, Nat.mod_lt _ (by decide)⟩ k
        (by show k.val = 4 * (k.val / 4) + k.val % 4; omega)
    · exact congrFun (shapeCast_self w shapeCasts_S32x32_S32x32) (ix2 k o)
  · exact (broadcastTo_1b_ab_apply _ _ p o).trans (shapeCast_a_1a_apply b _ 0 o)

/-! ## The staging block -/

theorem zero_off2 : (![0, 0] : Fin 2 → Nat) = fun _ => 0 := funext fun a => by fin_cases a <;> rfl
theorem zero_off1 : (![0] : Fin 1 → Nat) = fun _ => 0 := funext fun a => by fin_cases a; rfl

/-- What the body leaves in the output's staging block is the last steps over the eight slices' segment arrays. -/
theorem out_eq_finish (x0 : Vec Ideal S512x4096 .f32) (x1 : Vec Ideal S32x32 .f32) (x2 : Vec Ideal S32 .f32) :
    out0_3 (F := Ideal) x0 x1 x2 = finish (fun g => segQuad (segLoad x0 g)) x1 x2 := by
  unfold out0_3
  rw [View.canon_unit_zero zero_off2, pay2_eq, seg1_eq, seg2_eq, seg3_eq, seg4_eq, seg5_eq, seg6_eq, pay1_eq,
    View.ld_unit_zero (S := S32x32) zero_off2, View.ld_unit_zero (S := S32) zero_off1]
  refine congrArg (fun q => finish q x1 x2) (funext fun g => ?_)
  match g with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

/-- Entry (p, o) of the staging block: the specification's entry for row p of the x block, column o of the
    weights as the body holds them (already transposed) and bias o. -/
theorem out_apply (x0 : Vec Ideal S512x4096 .f32) (x1 : Vec Ideal S32x32 .f32) (x2 : Vec Ideal S32 .f32)
    (j : S512x32.Idx) :
    out0_3 (F := Ideal) x0 x1 x2 j = outEntry (fun c => x0 (ix2 (j 0) c)) (fun k => x1 (ix2 k (j 1))) (x2 (ix1 (j 1))) := by
  obtain ⟨p, o, rfl⟩ : ∃ (p : Fin 512) (o : Fin 32), j = ix2 p o := ⟨j 0, j 1, eq_ix2 j⟩
  rw [out_eq_finish, finish_apply]
  show _ = (∑ k : Fin 32, rowMoment (fun c => x0 (ix2 p c)) k * x1 (ix2 k o)) + x2 (ix1 o)
  refine congrArg (· + x2 (ix1 o)) (Finset.sum_congr rfl fun k _ => congrArg (· * x1 (ix2 k o)) ?_)
  rw [segQuad_apply, blockRow_segLoad]; rfl

end Cert.KernelIdeal.BodyValue

end
-- ==== Proof.ArrayValue.lean ====
/-
  From the kernel's blocks to its result array.

  The grid has 128 points; point t works on rows 512 t .. 512 t + 511. Its x block is those rows of x,
  its weight block is the whole [32, 32] array the host transposed before the launch, its bias block the
  whole bias, and what it writes back is rows 512 t .. 512 t + 511 of the result. Entry (p, o) of the
  block it writes is the specification's entry for row 512 t + p, so every point writes its block of ONE
  whole-array function; the 128 blocks tile the [65536, 32] result, which therefore ends holding that
  function. The weights the region finds are the transpose of W: entry (k, o) is W (o, k).
-/
import proofs.«116447_j52450140619338_1_alg».proof.Proof.Gen.KernelIdeal.Value
import proofs.«116447_j52450140619338_1_alg».proof.Proof.BodyValue
import Idealize.ShloMosaic.Lib.StableHlo.Run
import Idealize.ShloMosaic.Lib.ValueLayout

noncomputable section

open scoped BigOperators

namespace Cert.KernelIdeal.ArrayValue

open Cert.KernelIdeal Cert.KernelIdeal.Gen Cert.KernelIdeal.Value Cert.KernelIdeal.BodyValue
open Idealize.ShloMosaic Idealize.ShloMosaic.TcCoe Idealize.SL.Sem Idealize.ShloMosaic.ValueIdx Cert.Moments
open Idealize.ShloMosaic.Pipeline (Dat)

variable (m : (ℓ : Loc nD τ sig) → Buf (Elt Ideal) ℓ) (ρ : Dev nD → PrngReg)

/-- The arrays as the region finds them, at their literal types. -/
abbrev xArr (c : Dev nD) : S65536x4096.Idx → Elt Ideal .f32 := V m c main_arg0
abbrev wtArr (c : Dev nD) : S32x32.Idx → Elt Ideal .f32 := V m c main_v0
abbrev bArr (c : Dev nD) : S32.Idx → Elt Ideal .f32 := V m c main_arg2

/-- The result as a function of those arrays: entry (R, o) from row R of x, column o of the transposed weights, bias o. -/
def regionOut (c : Dev nD) : S65536x32.Idx → Elt Ideal .f32 := fun i =>
  outEntry (fun c' => xArr m c (ix2 (i 0) c')) (fun k => wtArr m c (ix2 k (i 1))) (bArr m c (ix1 (i 1)))

/-- The printed index maps, decided over the 128 grid points: the x window and the result window move together along
    the rows, the weight and bias windows stay put, and point t's row-block index is t. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the whole-array function. -/
theorem flushed_eq (c : Dev nD) (t : Fin cfg0.N) :
    (dats m 0 c).flushed 3 t = ((cfg0.win 3).blk t).view.read (Elt Ideal) (regionOut m c) := by
  rw [Value.flushed3]
  obtain ⟨e0, e1, e2, e3, e4, e5, e6⟩ := idx_facts t
  funext j
  show out0_3 (iblk m c 0 t) (iblk m c 1 t) (iblk m c 2 t) j = regionOut m c (((cfg0.win 3).blk t).view.emb j)
  refine (out_apply (iblk m c 0 t) (iblk m c 1 t) (iblk m c 2 t) j).trans ?_
  have hj0 : (j 0).val < 512 := (j 0).isLt
  have hj1 : (j 1).val < 32 := (j 1).isLt
  show outEntry _ _ _ = outEntry _ _ _
  refine congr (congr (congrArg outEntry (funext fun c' => ?_)) (funext fun k => ?_)) ?_
  · show V m c main_arg0 (((cfg0.win 0).blk t).view.emb (ix2 (j 0) c')) = V m c main_arg0 (ix2 ((((cfg0.win 3).blk t).view.emb j) 0) c')
    refine congrArg (V m c main_arg0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * c'.val = c'.val; omega
  · show V m c main_v0 (((cfg0.win 1).blk t).view.emb (ix2 k (j 1))) = V m c main_v0 (ix2 k ((((cfg0.win 3).blk t).view.emb j) 1))
    refine congrArg (V m c main_v0) (funext fun a => Fin.ext ?_)
    match a with
    | ⟨0, _⟩ => show win0_1.index t (0 : Fin 2) * 32 + 1 * k.val = k.val; omega
    | ⟨1, _⟩ => show win0_1.index t (1 : Fin 2) * 32 + 1 * (j 1).val = win0_3.index t (1 : Fin 2) * 32 + 1 * (j 1).val; omega
  · show V m c main_arg2 (((cfg0.win 2).blk t).view.emb (ix1 (j 1))) = V m c main_arg2 (ix1 ((((cfg0.win 3).blk t).view.emb j) 1))
    refine congrArg (V m c main_arg2) (funext fun a => Fin.ext ?_)
    match a with
    | ⟨0, _⟩ => show win0_2.index t (0 : Fin 1) * 32 + 1 * (j 1).val = win0_3.index t (1 : Fin 2) * 32 + 1 * (j 1).val; omega

/-- An index of the result is in point t's block iff each coordinate is in the block's range on its axis. -/
theorem mem_blk (t : Fin cfg0.N) (i : S65536x32.Idx) :
    i ∈ ((cfg0.win 3).blk t).view.set ↔ ∀ a : Fin 2, win0_3.index t a * S512x32.size a ≤ (i a).val
      ∧ (i a).val < win0_3.index t a * S512x32.size a + S512x32.size a := by
  show i ∈ ((View.whole main_v1).slice (win0_3.rect t)).set ↔ _
  rw [View.set_slice_whole, Rect.mem_set_unit]
  exact Iff.rfl

/-- Every index of the result is in some point's block: row R is in the block of point R / 512. -/
theorem cover (i : S65536x32.Idx) : ∃ t : Fin cfg0.N, (cfg0.win 3).flush t = true ∧ i ∈ ((cfg0.win 3).blk t).view.set := by
  have hi0 : (i 0).val < 65536 := (i 0).isLt
  have hi1 : (i 1).val < 32 := (i 1).isLt
  have hN : grid0.N = 128 := N_0
  obtain ⟨t, ht⟩ : ∃ t : Fin cfg0.N, t.val = (i 0).val / 512 := ⟨⟨(i 0).val / 512, by show (i 0).val / 512 < grid0.N; omega⟩, rfl⟩
  obtain ⟨-, -, -, -, -, e5, e6⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 32 ≤ (i 1).val ∧ (i 1).val < win0_3.index t (1 : Fin 2) * 32 + 32; omega

/-- So the result array ends holding the whole-array function. -/
theorem final (c : Dev nD) : (dats m 0 c).arrAt 3 cfg0.N = regionOut m c :=
  (dats m 0 c).arrAt_eq_of_cover 3 (regionOut m c) (fun t _ => flushed_eq m c t) cover

/-- The weights the region finds are the transpose of the argument W. -/
theorem wtArr_apply (c : Dev nD) (k o : Fin 32) :
    wtArr m c (ix2 k o) = (m ((c : Thread nD τ).loc main_arg1) : S32x32.Idx → Elt Ideal .f32) (ix2 o k) := by
  have e : (V m c main_v0 : S32x32.Idx → Elt Ideal .f32)
      = transpose S32x32 [1, 0] (m ((c : Thread nD τ).loc main_arg1) : S32x32.Idx → Elt Ideal .f32) transposes_S32x32_S32x32_1_0 := by
    dsimp only [Gen.V, Gen.hostOps0]; after_results
  show (V m c main_v0 : S32x32.Idx → Elt Ideal .f32) (ix2 k o) = _
  rw [e]
  exact transpose_ix2_apply _ _ k o

/-- The whole-array function is the specification's function of the three arguments. -/
theorem regionOut_eq (c : Dev nD) :
    regionOut m c = momentsOut (m ((c : Thread nD τ).loc main_arg0)) (m ((c : Thread nD τ).loc main_arg1)) (m ((c : Thread nD τ).loc main_arg2)) := by
  funext i
  obtain ⟨R, o, rfl⟩ : ∃ (R : Fin 65536) (o : Fin 32), i = ix2 R o := ⟨i 0, i 1, eq_ix2 i⟩
  rw [momentsOut_apply]
  show outEntry (fun c' => xArr m c (ix2 R c')) (fun k => wtArr m c (ix2 k o)) (bArr m c (ix1 o)) = _
  refine congr (congr (congrArg outEntry (funext fun c' => ?_)) (funext fun k => ?_)) ?_
  · exact congrFun (V_main_arg0 m c) (ix2 R c')
  · exact wtArr_apply m c k o
  · exact congrFun (V_main_arg2 m c) (ix1 o)

/-- The kernel's run, re-posted: the result array at the specification's function of the arguments, the arguments unchanged. -/
theorem run : θ_run defs (onTc (τ := τ) (main (F := Ideal))) ⟨m, fun _ => 0, ρ⟩ fun r => ∀ c : Dev nD,
      r.2.mem ((c : Thread nD τ).loc main_v1)
        = momentsOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (regionOut_eq m c)), (h c).2⟩)
    (Value.run_blocks m ρ)

end Cert.KernelIdeal.ArrayValue

end
-- ==== Proof.ReferenceValue.lean ====
/-
  The reference, stage by stage, at explicit coordinates.

  The reference views x as [65536, 8, 512]: entry (R, g, k) is x (R, 512 g + k), entry k of segment g of
  row R. Every stage below is read at (R, g) or (R, g, k) and is the matching quantity of the
  specification for that segment. The only algebra is the cube of sd: the reference multiplies
  (sd * sd) * sd where the specification has sd * (sd * sd), equal by commutativity of the product.
  The four statistics are joined on a new last axis and the [65536, 8, 4] array is read as [65536, 32]:
  column k is statistic k % 4 of segment k / 4. The product with the transpose of W and the bias follow.
-/
import proofs.«116447_j52450140619338_1_alg».proof.Proof.Gen.ReferenceIdeal.Read
import proofs.«116447_j52450140619338_1_alg».proof.Proof.Spec
import proofs.«116447_j52450140619338_1_alg».proof.Proof.LibColumns

noncomputable section

open scoped BigOperators

namespace Cert.ReferenceIdeal.RefValue

open Cert.ReferenceIdeal Cert.ReferenceIdeal.Gen Cert.ReferenceIdeal.Read Idealize.ShloMosaic Idealize.ShloMosaic.ValueIdx Cert.Moments

variable (x0 : (⟨S65536x4096, .f32⟩ : BufTy).Contents (Elt Ideal))

/-- Segment g of row R of x. -/
abbrev sg (R : Fin 65536) (g : Fin 8) : Fin 512 → EReal := rowSeg (fun c => x0 (ix2 R c)) g

/-! ## Index maps at explicit coordinates -/

theorem idx0_eq (R : Fin 65536) (g : Fin 8) (k : Fin 512) :
    idx_main_v0 (ix3 R g k) = ix2 R ⟨512 * g.val + k.val, by have := g.isLt; have := k.isLt; omega⟩ :=
  funext fun a => Fin.ext (by
    have := R.isLt; have := g.isLt; have := k.isLt
    match a with
    | ⟨0, _⟩ => show ((R.val * 8 + g.val) * 512 + k.val) / 4096 = R.val; omega
    | ⟨1, _⟩ => show ((R.val * 8 + g.val) * 512 + k.val) % 4096 = 512 * g.val + k.val; omega)

theorem idx1_eq (R : Fin 65536) (g : Fin 8) (k : Fin 512) : idx_main_v1 (ix2 R g) k = ix3 R g k :=
  funext fun a => by match a with | ⟨0, _⟩ => rfl | ⟨1, _⟩ => rfl | ⟨2, _⟩ => rfl
theorem idx8_eq (R : Fin 65536) (g : Fin 8) (k : Fin 512) : idx_main_v8 (ix2 R g) k = ix3 R g k :=
  funext fun a => by match a with | ⟨0, _⟩ => rfl | ⟨1, _⟩ => rfl | ⟨2, _⟩ => rfl
theorem idx16_eq (R : Fin 65536) (g : Fin 8) (k : Fin 512) : idx_main_v16 (ix2 R g) k = ix3 R g k :=
  funext fun a => by match a with | ⟨0, _⟩ => rfl | ⟨1, _⟩ => rfl | ⟨2, _⟩ => rfl
theorem idx24_eq (R : Fin 65536) (g : Fin 8) (k : Fin 512) : idx_main_v24 (ix2 R g) k = ix3 R g k :=
  funext fun a => by match a with | ⟨0, _⟩ => rfl | ⟨1, _⟩ => rfl | ⟨2, _⟩ => rfl

theorem idx45_eq (R : Fin 65536) (g : Fin 8) (k : Fin 512) : idx_main_v4 (idx_main_v5 (ix3 R g k)) = ix2 R g :=
  funext fun a => by match a with | ⟨0, _⟩ => rfl | ⟨1, _⟩ => rfl
theorem idx32_eq (R : Fin 65536) (g : Fin 8) (u : Fin 1) : idx_main_v32 (ix3 R g u) = ix2 R g :=
  funext fun a => by match a with | ⟨0, _⟩ => rfl | ⟨1, _⟩ => rfl
theorem idx33_eq (R : Fin 65536) (g : Fin 8) (u : Fin 1) : idx_main_v33 (ix3 R g u) = ix2 R g :=
  funext fun a => by match a with | ⟨0, _⟩ => rfl | ⟨1, _⟩ => rfl
theorem idx34_eq (R : Fin 65536) (g : Fin 8) (u : Fin 1) : idx_main_v34 (ix3 R g u) = ix2 R g :=
  funext fun a => by match a with | ⟨0, _⟩ => rfl | ⟨1, _⟩ => rfl
theorem idx35_eq (R : Fin 65536) (g : Fin 8) (u : Fin 1) : idx_main_v35 (ix3 R g u) = ix2 R g :=
  funext fun a => by match a with | ⟨0, _⟩ => rfl | ⟨1, _⟩ => rfl

theorem idx37_eq (R : Fin 65536) (k : Fin 32) :
    idx_main_v37 (ix2 R k) = ix3 R (⟨k.val / 4, by have := k.isLt; omega⟩ : Fin 8) (⟨k.val % 4, Nat.mod_lt _ (by decide)⟩ : Fin 4) :=
  funext fun a => Fin.ext (by
    have := R.isLt; have := k.isLt
    match a with
    | ⟨0, _⟩ => show (R.val * 32 + k.val) / 32 = R.val; omega
    | ⟨1, _⟩ => show (R.val * 32 + k.val) / 4 % 8 = k.val / 4; omega
    | ⟨2, _⟩ => show (R.val * 32 + k.val) % 4 = k.val % 4; omega)

theorem lidx_eq (R : Fin 65536) (o k : Fin 32) : lidx_main_v39 (ix2 R o) k = ix2 R k :=
  funext fun a => by match a with | ⟨0, _⟩ => rfl | ⟨1, _⟩ => rfl
theorem ridx38_eq (R : Fin 65536) (o k : Fin 32) : idx_main_v38 (ridx_main_v39 (ix2 R o) k) = ix2 o k :=
  funext fun a => by match a with | ⟨0, _⟩ => rfl | ⟨1, _⟩ => rfl
theorem idx4041_eq (R : Fin 65536) (o : Fin 32) : idx_main_v40 (idx_main_v41 (ix2 R o)) = ix1 o :=
  funext fun a => by match a with | ⟨0, _⟩ => rfl

/-! ## The stages -/

theorem v0_at (R : Fin 65536) (g : Fin 8) (k : Fin 512) :
    val_main_v0 (F := Ideal) x0 (ix3 R g k) = sg x0 R g k :=
  (val_main_v0_apply x0 _).trans (congrArg x0 (idx0_eq R g k))

theorem v1_at (R : Fin 65536) (g : Fin 8) :
    val_main_v1 (F := Ideal) x0 (ix2 R g) = ∑ k : Fin 512, sg x0 R g k := by
  refine (val_main_v1_apply x0 _).trans ?_
  show Ideal.ofBits .f32 0x00000000#32 + _ = _
  rw [Ideal.ofBits_zero_f32, zero_add]
  exact Finset.sum_congr rfl fun k _ => (congrArg (val_main_v0 (F := Ideal) x0) (idx1_eq R g k)).trans (v0_at x0 R g k)

theorem v3_at (R : Fin 65536) (g : Fin 8) :
    val_main_v3 (F := Ideal) x0 (ix2 R g) = segMean (sg x0 R g) := by
  show Ideal.div (val_main_v1 (F := Ideal) x0 (ix2 R g)) (val_main_v2 (F := Ideal) (ix2 R g)) = Ideal.div _ _
  rw [v1_at, val_main_v2_apply]; rfl

theorem v5_at (R : Fin 65536) (g : Fin 8) (k : Fin 512) :
    val_main_v5 (F := Ideal) x0 (ix3 R g k) = segMean (sg x0 R g) :=
  (val_main_v5_apply x0 _).trans ((val_main_v4_apply x0 _).trans
    ((congrArg (val_main_v3 (F := Ideal) x0) (idx45_eq R g k)).trans (v3_at x0 R g)))

theorem v6_at (R : Fin 65536) (g : Fin 8) (k : Fin 512) :
    val_main_v6 (F := Ideal) x0 (ix3 R g k) = segDev (sg x0 R g) k := by
  show val_main_v0 (F := Ideal) x0 (ix3 R g k) - val_main_v5 (F := Ideal) x0 (ix3 R g k) = _ - _
  rw [v0_at, v5_at]

theorem v7_at (R : Fin 65536) (g : Fin 8) (k : Fin 512) :
    val_main_v7 (F := Ideal) x0 (ix3 R g k) = segSq (sg x0 R g) k := by
  show val_main_v6 (F := Ideal) x0 (ix3 R g k) * val_main_v6 (F := Ideal) x0 (ix3 R g k) = _
  rw [v6_at]; rfl

theorem v8_at (R : Fin 65536) (g : Fin 8) :
    val_main_v8 (F := Ideal) x0 (ix2 R g) = ∑ k : Fin 512, segSq (sg x0 R g) k := by
  refine (val_main_v8_apply x0 _).trans ?_
  show Ideal.ofBits .f32 0x00000000#32 + _ = _
  rw [Ideal.ofBits_zero_f32, zero_add]
  exact Finset.sum_congr rfl fun k _ => (congrArg (val_main_v7 (F := Ideal) x0) (idx8_eq R g k)).trans (v7_at x0 R g k)

theorem v13_at (R : Fin 65536) (g : Fin 8) :
    val_main_v13 (F := Ideal) x0 (ix2 R g) = segSd (sg x0 R g) := by
  show Ideal.sqrt (Ideal.div (val_main_v8 (F := Ideal) x0 (ix2 R g)) (val_main_v9 (F := Ideal) (ix2 R g)))
    + val_main_v12 (F := Ideal) (ix2 R g) = Ideal.sqrt (Ideal.div _ _) + _
  rw [v8_at, val_main_v9_apply, val_main_v12_apply]; rfl

theorem v15_at (R : Fin 65536) (g : Fin 8) (k : Fin 512) :
    val_main_v15 (F := Ideal) x0 (ix3 R g k) = segSq (sg x0 R g) k * segDev (sg x0 R g) k := by
  show (val_main_v6 (F := Ideal) x0 (ix3 R g k) * val_main_v6 (F := Ideal) x0 (ix3 R g k))
    * val_main_v6 (F := Ideal) x0 (ix3 R g k) = _
  rw [v6_at]; rfl

theorem v16_at (R : Fin 65536) (g : Fin 8) :
    val_main_v16 (F := Ideal) x0 (ix2 R g) = ∑ k : Fin 512, segSq (sg x0 R g) k * segDev (sg x0 R g) k := by
  refine (val_main_v16_apply x0 _).trans ?_
  show Ideal.ofBits .f32 0x00000000#32 + _ = _
  rw [Ideal.ofBits_zero_f32, zero_add]
  exact Finset.sum_congr rfl fun k _ => (congrArg (val_main_v15 (F := Ideal) x0) (idx16_eq R g k)).trans (v15_at x0 R g k)

theorem v21_at (R : Fin 65536) (g : Fin 8) :
    val_main_v21 (F := Ideal) x0 (ix2 R g) = segSkew (sg x0 R g) := by
  show Ideal.div (Ideal.div (val_main_v16 (F := Ideal) x0 (ix2 R g)) (val_main_v17 (F := Ideal) (ix2 R g)))
    ((val_main_v13 (F := Ideal) x0 (ix2 R g) * val_main_v13 (F := Ideal) x0 (ix2 R g)) * val_main_v13 (F := Ideal) x0 (ix2 R g))
    = Ideal.div (Ideal.div _ _) _
  rw [v16_at, v13_at, val_main_v17_apply, mul_comm (segSd (sg x0 R g) * segSd (sg x0 R g)) (segSd (sg x0 R g))]; rfl

theorem v23_at (R : Fin 65536) (g : Fin 8) (k : Fin 512) :
    val_main_v23 (F := Ideal) x0 (ix3 R g k) = segSq (sg x0 R g) k * segSq (sg x0 R g) k := by
  show (val_main_v6 (F := Ideal) x0 (ix3 R g k) * val_main_v6 (F := Ideal) x0 (ix3 R g k))
    * (val_main_v6 (F := Ideal) x0 (ix3 R g k) * val_main_v6 (F := Ideal) x0 (ix3 R g k)) = _
  rw [v6_at]; rfl

theorem v24_at (R : Fin 65536) (g : Fin 8) :
    val_main_v24 (F := Ideal) x0 (ix2 R g) = ∑ k : Fin 512, segSq (sg x0 R g) k * segSq (sg x0 R g) k := by
  refine (val_main_v24_apply x0 _).trans ?_
  show Ideal.ofBits .f32 0x00000000#32 + _ = _
  rw [Ideal.ofBits_zero_f32, zero_add]
  exact Finset.sum_congr rfl fun k _ => (congrArg (val_main_v23 (F := Ideal) x0) (idx24_eq R g k)).trans (v23_at x0 R g k)

theorem v31_at (R : Fin 65536) (g : Fin 8) :
    val_main_v31 (F := Ideal) x0 (ix2 R g) = segKurt (sg x0 R g) := by
  show Ideal.div (Ideal.div (val_main_v24 (F := Ideal) x0 (ix2 R g)) (val_main_v25 (F := Ideal) (ix2 R g)))
    ((val_main_v13 (F := Ideal) x0 (ix2 R g) * val_main_v13 (F := Ideal) x0 (ix2 R g))
      * (val_main_v13 (F := Ideal) x0 (ix2 R g) * val_main_v13 (F := Ideal) x0 (ix2 R g)))
    - val_main_v30 (F := Ideal) (ix2 R g) = Ideal.div (Ideal.div _ _) _ - _
  rw [v24_at, v13_at, val_main_v25_apply, val_main_v30_apply]; rfl

/-! ## The four statistics joined, and the [65536, 32] view -/

theorem v32_at (R : Fin 65536) (g : Fin 8) (u : Fin 1) : val_main_v32 (F := Ideal) x0 (ix3 R g u) = segMean (sg x0 R g) :=
  (val_main_v32_apply x0 _).trans ((congrArg (val_main_v3 (F := Ideal) x0) (idx32_eq R g u)).trans (v3_at x0 R g))
theorem v33_at (R : Fin 65536) (g : Fin 8) (u : Fin 1) : val_main_v33 (F := Ideal) x0 (ix3 R g u) = segSd (sg x0 R g) :=
  (val_main_v33_apply x0 _).trans ((congrArg (val_main_v13 (F := Ideal) x0) (idx33_eq R g u)).trans (v13_at x0 R g))
theorem v34_at (R : Fin 65536) (g : Fin 8) (u : Fin 1) : val_main_v34 (F := Ideal) x0 (ix3 R g u) = segSkew (sg x0 R g) :=
  (val_main_v34_apply x0 _).trans ((congrArg (val_main_v21 (F := Ideal) x0) (idx34_eq R g u)).trans (v21_at x0 R g))
theorem v35_at (R : Fin 65536) (g : Fin 8) (u : Fin 1) : val_main_v35 (F := Ideal) x0 (ix3 R g u) = segKurt (sg x0 R g) :=
  (val_main_v35_apply x0 _).trans ((congrArg (val_main_v31 (F := Ideal) x0) (idx35_eq R g u)).trans (v31_at x0 R g))

theorem v36_at (R : Fin 65536) (g : Fin 8) (j : Fin 4) :
    val_main_v36 (F := Ideal) x0 (ix3 R g j) = segStat (sg x0 R g) j := by
  unfold val_main_v36
  match j with
  | ⟨0, _⟩ => exact (concat4_last_apply _ _ _ _ _ R g ⟨0, _⟩ _ rfl).trans (v32_at x0 R g 0)
  | ⟨1, _⟩ => exact (concat4_last_apply _ _ _ _ _ R g ⟨1, _⟩ _ rfl).trans (v33_at x0 R g 0)
  | ⟨2, _⟩ => exact (concat4_last_apply _ _ _ _ _ R g ⟨2, _⟩ _ rfl).trans (v34_at x0 R g 0)
  | ⟨3, _⟩ => exact (concat4_last_apply _ _ _ _ _ R g ⟨3, _⟩ _ rfl).trans (v35_at x0 R g 0)

theorem v37_at (R : Fin 65536) (k : Fin 32) :
    val_main_v37 (F := Ideal) x0 (ix2 R k) = rowMoment (fun c => x0 (ix2 R c)) k :=
  (val_main_v37_apply x0 _).trans ((congrArg (val_main_v36 (F := Ideal) x0) (idx37_eq R k)).trans (v36_at x0 R _ _))

/-! ## The result -/

/-- The reference's result is the specification's function of the three arguments. -/
theorem ref_eq (x1 : (⟨S32x32, .f32⟩ : BufTy).Contents (Elt Ideal)) (x2 : (⟨S32, .f32⟩ : BufTy).Contents (Elt Ideal)) :
    val_main_v42 (F := Ideal) x0 x1 x2 = momentsOut x0 x1 x2 := by
  funext i
  obtain ⟨R, o, rfl⟩ : ∃ (R : Fin 65536) (o : Fin 32), i = ix2 R o := ⟨i 0, i 1, eq_ix2 i⟩
  rw [momentsOut_apply]
  show val_main_v39 (F := Ideal) x0 x1 (ix2 R o) + val_main_v41 (F := Ideal) x2 (ix2 R o) = (∑ k : Fin 32, _ * _) + _
  refine congrArg₂ (· + ·) ?_ ?_
  · refine (val_main_v39_apply x0 x1 _).trans (Finset.sum_congr rfl fun k _ => congrArg₂ (· * ·) ?_ ?_)
    · exact (congrArg (val_main_v37 (F := Ideal) x0) (lidx_eq R o k)).trans (v37_at x0 R k)
    · exact (val_main_v38_apply x1 _).trans (congrArg x1 (ridx38_eq R o k))
  · exact (val_main_v41_apply x2 _).trans ((val_main_v40_apply x2 _).trans (congrArg x2 (idx4041_eq R o)))

end Cert.ReferenceIdeal.RefValue

end
-- ==== Proof.lean ====
/-
  The kernel and its reference compute, for every row of x : f32[65536, 4096] read as 8 segments of 512
  entries, the mean, the unbiased standard deviation plus eps, the skew and the excess kurtosis of each
  segment (32 moments per row), then multiply the [65536, 32] moments by the transpose of W and add b.

  On the extended reals both programs perform the same operations on the same literals (512, 511, eps,
  3 as their f32 patterns denote them); a lane sum and a host sum are the same finite sum, the kernel's
  matrix product into a zero accumulator and the host's dot_general the same sum over the 32 moments.
  The only difference in spelling is the cube of sd, sd * (sd * sd) against (sd * sd) * sd, equal by
  commutativity of the product of extended reals; no step needs the inputs to be finite.

  The result of both is Cert.Moments.momentsOut of the three arguments (Proof/Spec.lean): the reference
  stage by stage (Proof/ReferenceValue.lean), the kernel block by block, point t of the 128-point grid
  writing rows 512 t .. 512 t + 511 (Proof/SegmentValue.lean, Proof/BodyValue.lean, Proof/ArrayValue.lean).
  No operation was rewritten in the idealized kernel, so the preservation claim has nothing to state.
-/
import proofs.«116447_j52450140619338_1_alg».proof.Defs
import proofs.«116447_j52450140619338_1_alg».proof.Proof.Gen.Kernel
import proofs.«116447_j52450140619338_1_alg».proof.Proof.Gen.Kernel.Skeleton
import proofs.«116447_j52450140619338_1_alg».proof.Proof.Gen.Kernel.Launch
import proofs.«116447_j52450140619338_1_alg».proof.Proof.Gen.Kernel.Points
import proofs.«116447_j52450140619338_1_alg».proof.Proof.Gen.Kernel.Frame
import proofs.«116447_j52450140619338_1_alg».proof.Proof.Gen.KernelIdeal
import proofs.«116447_j52450140619338_1_alg».proof.Proof.Gen.KernelIdeal.Skeleton
import proofs.«116447_j52450140619338_1_alg».proof.Proof.Gen.KernelIdeal.Launch
import proofs.«116447_j52450140619338_1_alg».proof.Proof.Gen.KernelIdeal.Points
import proofs.«116447_j52450140619338_1_alg».proof.Proof.Gen.KernelIdeal.Frame
import proofs.«116447_j52450140619338_1_alg».proof.Proof.Gen.ReferenceIdeal
import proofs.«116447_j52450140619338_1_alg».proof.Proof.Gen.Pre_finite_inputs
import proofs.«116447_j52450140619338_1_alg».proof.Proof.Gen.KernelIdeal.Value
import proofs.«116447_j52450140619338_1_alg».proof.Proof.Gen.ReferenceIdeal.Run
import proofs.«116447_j52450140619338_1_alg».proof.Proof.Gen.ReferenceIdeal.Read
import proofs.«116447_j52450140619338_1_alg».proof.Proof.ArrayValue
import proofs.«116447_j52450140619338_1_alg».proof.Proof.ReferenceValue
import Idealize.ShloMosaic.Adequacy
import Idealize.ShloMosaic.Init

noncomputable section

namespace Cert.Proof

open Idealize.ShloMosaic Idealize.ShloMosaic.TcCoe Idealize.SL.Sem Cert.Moments

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x, W and b both programs end with the result array at momentsOut x W b. -/
theorem algebraic : Cert.algebraic_KernelIdeal_ReferenceIdeal := by
  intro m ρ m' ρ' _ hagree
  refine ⟨fun c => momentsOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
